-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S_ : Shape := ⟨0, ![]⟩

class Facts : Prop where
  bcast_S_S2x2048x384 : S_.BroadcastsInDim S2x2048x384 (![] : Fin 0 → Fin S2x2048x384.rank)
  reducesTo_S2x2048x384_S_d0_1_2 : S2x2048x384.ReducesTo [0, 1, 2] S_
  h_S_ : 0 < S_.numel
  bcast_S_S2x16384x2048 : S_.BroadcastsInDim S2x16384x2048 (![] : Fin 0 → Fin S2x16384x2048.rank)
  reducesTo_S2x16384x2048_S_d0_1_2 : S2x16384x2048.ReducesTo [0, 1, 2] S_
  bcast_S_S50x384 : S_.BroadcastsInDim S50x384 (![] : Fin 0 → Fin S50x384.rank)
  reducesTo_S50x384_S_d0_1 : S50x384.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S2x2048x384 .f32) (main_arg1 : FVec F S2x16384x2048 .f32) (main_arg2 : FVec F S50x384 .f32) (main_arg3 : FVec F S50 .f32) : IVec S_ 1 :=
  let main_v0 : FVec F S2x2048x384 .f32 := Host.absf main_arg0
  let main_cst : FVec F S_ .f32 := constant S_ .f32 0x7F800000#32
  let main_v1 : FVec F S2x2048x384 .f32 := broadcastInDim S2x2048x384 ![] bcast_S_S2x2048x384 main_cst
  let main_v2 : IVec S2x2048x384 1 := cmpf .olt main_v0 main_v1
  let main_c : IVec S_ 1 := constantI S_ 1 1#1
  let main_v3 : IVec S_ 1 := (fun x v => Host.reduce IntOp.andi x v reducesTo_S2x2048x384_S_d0_1_2 h_S_) main_v2 main_c
  let main_v4 : FVec F S2x16384x2048 .f32 := Host.absf main_arg1
  let main_cst_0 : FVec F S_ .f32 := constant S_ .f32 0x7F800000#32
  let main_v5 : FVec F S2x16384x2048 .f32 := broadcastInDim S2x16384x2048 ![] bcast_S_S2x16384x2048 main_cst_0
  let main_v6 : IVec S2x16384x2048 1 := cmpf .olt main_v4 main_v5
  let main_c_1 : IVec S_ 1 := constantI S_ 1 1#1
  let main_v7 : IVec S_ 1 := (fun x v => Host.reduce IntOp.andi x v reducesTo_S2x16384x2048_S_d0_1_2 h_S_) main_v6 main_c_1
  let main_v8 : IVec S_ 1 := andi main_v3 main_v7
  let main_v9 : FVec F S50x384 .f32 := Host.absf main_arg2
  let main_cst_2 : FVec F S_ .f32 := constant S_ .f32 0x7F800000#32
  let main_v10 : FVec F S50x384 .f32 := broadcastInDim S50x384 ![] bcast_S_S50x384 main_cst_2
  let main_v11 : IVec S50x384 1 := cmpf .olt main_v9 main_v10
  let main_c_3 : IVec S_ 1 := constantI S_ 1 1#1
  let main_v12 : IVec S_ 1 := (fun x v => Host.reduce IntOp.andi x v reducesTo_S50x384_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S384x50 : Shape := ⟨2, ![384, 50]⟩
abbrev S2x16384x50 : Shape := ⟨3, ![2, 16384, 50]⟩
abbrev S1x1024x2048 : Shape := ⟨3, ![1, 1024, 2048]⟩
abbrev S1x2048x384 : Shape := ⟨3, ![1, 2048, 384]⟩
abbrev S1x1024x50 : Shape := ⟨3, ![1, 1024, 50]⟩
abbrev S1024x2048 : Shape := ⟨2, ![1024, 2048]⟩
abbrev S2048x384 : Shape := ⟨2, ![2048, 384]⟩
abbrev S1024x384 : Shape := ⟨2, ![1024, 384]⟩
abbrev S1024x50 : Shape := ⟨2, ![1024, 50]⟩
abbrev S1x50 : Shape := ⟨2, ![1, 50]⟩

abbrev nBuf : Space → Nat
  | .hbm => 6
  | .vmem => 8
  | .smem => 0
  | _ => 0

abbrev bufTy : (tb : Table) → Fin (tcTables nBuf tb) → BufTy
  | .hbm, ⟨0, _⟩ => ⟨S2x2048x384, .f32⟩
  | .hbm, ⟨1, _⟩ => ⟨S2x16384x2048, .f32⟩
  | .hbm, ⟨2, _⟩ => ⟨S50x384, .f32⟩
  | .hbm, ⟨3, _⟩ => ⟨S50, .f32⟩
  | .hbm, ⟨4, _⟩ => ⟨S384x50, .f32⟩
  | .hbm, ⟨5, _⟩ => ⟨S2x16384x50, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x384, .f32⟩
  | .local _ .vmem, ⟨3, _⟩ => ⟨S1x2048x384, .f32⟩
  | .local _ .vmem, ⟨4, _⟩ => ⟨S384x50, .f32⟩
  | .local _ .vmem, ⟨5, _⟩ => ⟨S50, .f32⟩
  | .local _ .vmem, ⟨6, _⟩ => ⟨S1x1024x50, .f32⟩
  | .local _ .vmem, ⟨7, _⟩ => ⟨S1x1024x50, .f32⟩
  | _, _ => ⟨S2x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S384x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S50x384_S384x50_1_0 : S50x384.Transposes [1, 0] S384x50
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  inb_S384x50_S384x50_0_0 : ∀ a, (![0, 0] : Fin 2 → Nat) a + S384x50.size a ≤ S384x50.size a
  h_S384x50 : 0 < S384x50.numel
  shapeCasts_S384x50_S384x50 : S384x50.ShapeCasts S384x50
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  inb_S1x1024x50_S1x1024x50_0_0_0 : ∀ a, (![0, 0, 0] : Fin 3 → Nat) a + S1x1024x50.size a ≤ S1x1024x50.size a
  h_S1x1024x50 : 0 < S1x1024x50.numel
  shapeCasts_S1x1024x50_S1024x50 : S1x1024x50.ShapeCasts S1024x50
  shapeCasts_S1024x50_S1x1024x50 : S1024x50.ShapeCasts S1x1024x50
  dot_S1024x2048_S2048x384_S1024x384_1_0_0_1_n_n_wf : DotDims.WF S1024x2048 S2048x384 S1024x384 [1] [0] [0] [1] [] []
  dot_S1024x384_S384x50_S1024x50_1_0_0_1_n_n_wf : DotDims.WF S1024x384 S384x50 S1024x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S2x16384x2048.size a
  hwx0_0 : ∀ i : grid0.Coords, EltTy.bits .f32 = 32 ∨ (Rect.block (s := S2x16384x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x384.size a ≤ S2x2048x384.size a
  hwx0_1 : ∀ i : grid0.Coords, EltTy.bits .f32 = 32 ∨ (Rect.block (s := S2x2048x384) S1x2048x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x50.size a ≤ S384x50.size a
  hwx0_2 : ∀ i : grid0.Coords, EltTy.bits .f32 = 32 ∨ (Rect.block (s := S384x50) S384x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x50.size a ≤ S2x16384x50.size a
  hwx0_4 : ∀ i : grid0.Coords, EltTy.bits .f32 = 32 ∨ (Rect.block (s := S2x16384x50) S1x1024x50.size (cc0_transform_4 i) (hinb0_4 i)).WholeWords (EltTy.packing .f32)

variable [Facts₀]

def dot_S1024x2048_S2048x384_S1024x384_1_0_0_1_n_n : DotDims S1024x2048 S2048x384 S1024x384 where
  lhsContracting := [1]
  rhsContracting := [0]
  lhsNonContracting := [0]
  rhsNonContracting := [1]
  lhsBatch := []
  rhsBatch := []
  wf := dot_S1024x2048_S2048x384_S1024x384_1_0_0_1_n_n_wf
def dot_S1024x384_S384x50_S1024x50_1_0_0_1_n_n : DotDims S1024x384 S384x50 S1024x50 where
  lhsContracting := [1]
  rhsContracting := [0]
  lhsNonContracting := [0]
  rhsNonContracting := [1]
  lhsBatch := []
  rhsBatch := []
  wf := dot_S1024x384_S384x50_S1024x50_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S384x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S2x16384x384 : Shape := ⟨3, ![2, 16384, 384]⟩
abbrev S2x16384x50 : Shape := ⟨3, ![2, 16384, 50]⟩
abbrev S1x1x50 : Shape := ⟨3, ![1, 1, 50]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x384, .f32⟩
  | .hbm, ⟨1, _⟩ => ⟨S2x16384x2048, .f32⟩
  | .hbm, ⟨2, _⟩ => ⟨S50x384, .f32⟩
  | .hbm, ⟨3, _⟩ => ⟨S50, .f32⟩
  | .hbm, ⟨4, _⟩ => ⟨S2x16384x384, .f32⟩
  | .hbm, ⟨5, _⟩ => ⟨S2x16384x50, .f32⟩
  | .hbm, ⟨6, _⟩ => ⟨S1x1x50, .f32⟩
  | .hbm, ⟨7, _⟩ => ⟨S2x16384x50, .f32⟩
  | .hbm, ⟨8, _⟩ => ⟨S2x16384x50, .f32⟩
  | _, _ => ⟨S2x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S50_S1x1x50_2 : S50.BroadcastsInDim S1x1x50 (![2] : Fin 1 → Fin S1x1x50.rank)
  bcast_S1x1x50_S2x16384x50_0_1_2 : S1x1x50.BroadcastsInDim S2x16384x50 (![0, 1, 2] : Fin 3 → Fin S2x16384x50.rank)
  dot_S2x16384x2048_S2x2048x384_S2x16384x384_2_1_1_2_0_0_wf : DotDims.WF S2x16384x2048 S2x2048x384 S2x16384x384 [2] [1] [1] [2] [0] [0]
  dot_S2x16384x384_S50x384_S2x16384x50_2_1_01_0_n_n_wf : DotDims.WF S2x16384x384 S50x384 S2x16384x50 [2] [1] [0, 1] [0] [] []

variable [Facts₀]

def dot_S2x16384x2048_S2x2048x384_S2x16384x384_2_1_1_2_0_0 : DotDims S2x16384x2048 S2x2048x384 S2x16384x384 where
  lhsContracting := [2]
  rhsContracting := [1]
  lhsNonContracting := [1]
  rhsNonContracting := [2]
  lhsBatch := [0]
  rhsBatch := [0]
  wf := dot_S2x16384x2048_S2x2048x384_S2x16384x384_2_1_1_2_0_0_wf
def dot_S2x16384x384_S50x384_S2x16384x50_2_1_01_0_n_n : DotDims S2x16384x384 S50x384 S2x16384x50 where
  lhsContracting := [2]
  rhsContracting := [1]
  lhsNonContracting := [0, 1]
  rhsNonContracting := [0]
  lhsBatch := []
  rhsBatch := []
  wf := dot_S2x16384x384_S50x384_S2x16384x50_2_1_01_0_n_n_wf

class Facts : Prop extends Facts₀ where

variable [Facts]
-- ==== Proof.Logits.lean ====
/-
  The atom logits as ONE function of the four argument arrays, index by index, on the extended reals.

  For batch entry `b`, atom `a` and output channel `o`:
    gathered b a c = Σ_{r < 2048} sel[b, a, r] · s[b, r, c]        (the residue embedding selected onto the atom,
                                                                    written as a product with the selection matrix)
    logits[b, a, o] = (Σ_{c < 384} gathered b a c · W[o, c]) + bias[o]
  Both programs compute exactly this nest of sums in exactly this association, so no law of the extended reals beyond
  the definitions is needed to join them, and the finiteness of the inputs is never used.
-/
import Idealize.ShloMosaic.PureOps.Ideal
import Idealize.ShloMosaic.Lib.ValueIdx

noncomputable section

open scoped BigOperators

namespace Cert.Logits

open Idealize.ShloMosaic Idealize.ShloMosaic.ValueIdx

/-- The residue embedding carried to atom `(b, a)`, channel `c`: the row `sel[b, a, ·]` against the column `s[b, ·, c]`. -/
def gathered (s : FVec Ideal ⟨3, ![2, 2048, 384]⟩ .f32) (sel : FVec Ideal ⟨3, ![2, 16384, 2048]⟩ .f32)
    (b : Fin 2) (a : Fin 16384) (c : Fin 384) : EReal :=
  ∑ r : Fin 2048, sel (ix3 b a r) * s (ix3 b r c)

/-- The linear head applied to the gathered embedding, plus the bias. -/
def logits (s : FVec Ideal ⟨3, ![2, 2048, 384]⟩ .f32) (sel : FVec Ideal ⟨3, ![2, 16384, 2048]⟩ .f32)
    (W : FVec Ideal ⟨2, ![50, 384]⟩ .f32) (bias : FVec Ideal ⟨1, ![50]⟩ .f32) : FVec Ideal ⟨3, ![2, 16384, 50]⟩ .f32 :=
  fun i => (∑ c : Fin 384, gathered s sel (i 0) (i 1) c * W (ix2 (i 2) c)) + bias (ix1 (i 2))

/-- The same, at an index given by its coordinates. -/
theorem logits_apply (s : FVec Ideal ⟨3, ![2, 2048, 384]⟩ .f32) (sel : FVec Ideal ⟨3, ![2, 16384, 2048]⟩ .f32)
    (W : FVec Ideal ⟨2, ![50, 384]⟩ .f32) (bias : FVec Ideal ⟨1, ![50]⟩ .f32) (b : Fin 2) (a : Fin 16384) (o : Fin 50) :
    logits s sel W bias (ix3 b a o)
      = (∑ c : Fin 384, (∑ r : Fin 2048, sel (ix3 b a r) * s (ix3 b r c)) * W (ix2 o c)) + bias (ix1 o) := rfl

end Cert.Logits

end
-- ==== Proof.ReferenceLogits.lean ====
/-
  The reference's result is the specification `Cert.Logits.logits` of its four arguments.

  The reference is two contractions and a broadcast sum: `einsum('bar,brc->bac')` (batch axis b, contracting r),
  `einsum('bac,oc->bao')` (contracting c) and `+ bias` broadcast along the last axis. Read one operation at a time at an
  index (b, a, o), the result is (Σ_c (Σ_r sel[b,a,r] · s[b,r,c]) · W[o,c]) + bias[o]: the specification, once the
  operand indices each stage reads are written by their coordinates.
-/
import proofs.«150678_j90228672954830_1_alg».proof.Proof.Gen.ReferenceIdeal.Read
import proofs.«150678_j90228672954830_1_alg».proof.Proof.Logits

noncomputable section

open scoped BigOperators

namespace Cert.ReferenceLogits

open Cert.ReferenceIdeal Cert.ReferenceIdeal.Read Cert.Logits
open Idealize.ShloMosaic Idealize.ShloMosaic.ValueIdx

/-- The selection matrix's entry the inner contraction reads: (b, a, r). -/
theorem sel_index (i : S2x16384x50.Idx) (c : Fin 384) (r : Fin 2048) :
    lidx_main_v0 (lidx_main_v1 i c) r = ix3 (i 0) (i 1) r :=
  funext fun a => Fin.ext (by match a with | ⟨0, _⟩ => rfl | ⟨1, _⟩ => rfl | ⟨2, _⟩ => rfl)

/-- The embedding's entry the inner contraction reads: (b, r, c). -/
theorem emb_index (i : S2x16384x50.Idx) (c : Fin 384) (r : Fin 2048) :
    ridx_main_v0 (lidx_main_v1 i c) r = ix3 (i 0) r c :=
  funext fun a => Fin.ext (by match a with | ⟨0, _⟩ => rfl | ⟨1, _⟩ => rfl | ⟨2, _⟩ => rfl)

/-- The weight's entry the outer contraction reads: (o, c). -/
theorem weight_index (i : S2x16384x50.Idx) (c : Fin 384) : ridx_main_v1 i c = ix2 (i 2) c :=
  funext fun a => Fin.ext (by match a with | ⟨0, _⟩ => rfl | ⟨1, _⟩ => rfl)

/-- The bias entry the two broadcasts read: o. -/
theorem bias_index (i : S2x16384x50.Idx) : idx_main_v2 (idx_main_v3 i) = ix1 (i 2) :=
  funext fun a => Fin.ext (by match a with | ⟨0, _⟩ => rfl)

/-- The reference's last stage, at the ideal values, is the specification. -/
theorem stage_eq_logits (x0 : (⟨S2x2048x384, .f32⟩ : BufTy).Contents (Elt Ideal))
    (x1 : (⟨S2x16384x2048, .f32⟩ : BufTy).Contents (Elt Ideal)) (x2 : (⟨S50x384, .f32⟩ : BufTy).Contents (Elt Ideal))
    (x3 : (⟨S50, .f32⟩ : BufTy).Contents (Elt Ideal)) :
    val_main_v4 (F := Ideal) x0 x1 x2 x3 = logits x0 x1 x2 x3 := by
  funext i
  rw [val_main_v4_apply, val_main_v1_apply, val_main_v3_apply, val_main_v2_apply, bias_index]
  refine congrArg (· + x3 (ix1 (i 2))) (Finset.sum_congr rfl fun c _ => ?_)
  rw [val_main_v0_apply, weight_index]
  refine congrArg (· * x2 (ix2 (i 2) c)) (Finset.sum_congr rfl fun r _ => ?_)
  rw [sel_index, emb_index]
  rfl

end Cert.ReferenceLogits

end
-- ==== Proof.TileProducts.lean ====
/-
  What one grid point's body computes, at an entry of its output tile.

  A point holds a tile of 1024 atoms of one batch entry: the selection rows `x0 : [1, 1024, 2048]`, that batch entry's
  residue embedding `x1 : [1, 2048, 384]`, the transposed weights `x2 : [384, 50]` and the bias `x3 : [50]`. The body
  multiplies the selection tile by the embedding (contracting the 2048 residues), multiplies the result by the transposed
  weights (contracting the 384 channels), and adds the bias row to every atom's row. On the extended reals the
  narrowings to bf16 are the identity and a product accumulated into a zero tile is the plain sum over the contracted
  coordinate, so at atom `p` of the tile and channel `o` the stored value is
      (Σ_{c < 384} (Σ_{r < 2048} x0[0, p, r] · x1[0, r, c]) · x2[c, o]) + x3[o].
-/
import proofs.«150678_j90228672954830_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TileProducts

open Cert.KernelIdeal Cert.KernelIdeal.Gen
open Idealize.ShloMosaic Idealize.ShloMosaic.ValueIdx

/-! ## The two products' operand indices, axis by axis -/

/-- The selecting product [1024, 2048] × [2048, 384]: the left operand's row is the output's row … -/
theorem select_lhs_0 (j : S1024x384.Idx) (q : dot_S1024x2048_S2048x384_S1024x384_1_0_0_1_n_n.contr.Idx) :
    (dot_S1024x2048_S2048x384_S1024x384_1_0_0_1_n_n.lhsIdx j q 0).val = (j 0).val := by
  unfold DotDims.lhsIdx
  rw [dif_neg (show ¬(0 : Fin S1024x2048.rank) ∈ dot_S1024x2048_S2048x384_S1024x384_1_0_0_1_n_n.lhsBatch by decide), dif_pos (show (0 : Fin S1024x2048.rank) ∈ dot_S1024x2048_S2048x384_S1024x384_1_0_0_1_n_n.lhsNonContracting by decide)]
  rfl
/-- … its column the contraction coordinate; -/
theorem select_lhs_1 (j : S1024x384.Idx) (q : dot_S1024x2048_S2048x384_S1024x384_1_0_0_1_n_n.contr.Idx) :
    (dot_S1024x2048_S2048x384_S1024x384_1_0_0_1_n_n.lhsIdx j q 1).val = (q ⟨0, by decide⟩).val :=
  dot_S1024x2048_S2048x384_S1024x384_1_0_0_1_n_n.lhsIdx_val_of_single rfl j q
/-- the right operand's row is the contraction coordinate … -/
theorem select_rhs_0 (j : S1024x384.Idx) (q : dot_S1024x2048_S2048x384_S1024x384_1_0_0_1_n_n.contr.Idx) :
    (dot_S1024x2048_S2048x384_S1024x384_1_0_0_1_n_n.rhsIdx j q 0).val = (q ⟨0, by decide⟩).val :=
  dot_S1024x2048_S2048x384_S1024x384_1_0_0_1_n_n.rhsIdx_val_of_single rfl j q
/-- … and its column the output's column. -/
theorem select_rhs_1 (j : S1024x384.Idx) (q : dot_S1024x2048_S2048x384_S1024x384_1_0_0_1_n_n.contr.Idx) :
    (dot_S1024x2048_S2048x384_S1024x384_1_0_0_1_n_n.rhsIdx j q 1).val = (j 1).val := by
  unfold DotDims.rhsIdx
  rw [dif_neg (show ¬(1 : Fin S2048x384.rank) ∈ dot_S1024x2048_S2048x384_S1024x384_1_0_0_1_n_n.rhsBatch by decide), dif_pos (show (1 : Fin S2048x384.rank) ∈ dot_S1024x2048_S2048x384_S1024x384_1_0_0_1_n_n.rhsNonContracting by decide)]
  rfl

/-- The head's product [1024, 384] × [384, 50]: the left operand's row is the output's row … -/
theorem head_lhs_0 (j : S1024x50.Idx) (q : dot_S1024x384_S384x50_S1024x50_1_0_0_1_n_n.contr.Idx) :
    (dot_S1024x384_S384x50_S1024x50_1_0_0_1_n_n.lhsIdx j q 0).val = (j 0).val := by
  unfold DotDims.lhsIdx
  rw [dif_neg (show ¬(0 : Fin S1024x384.rank) ∈ dot_S1024x384_S384x50_S1024x50_1_0_0_1_n_n.lhsBatch by decide), dif_pos (show (0 : Fin S1024x384.rank) ∈ dot_S1024x384_S384x50_S1024x50_1_0_0_1_n_n.lhsNonContracting by decide)]
  rfl
/-- … its column the contraction coordinate; -/
theorem head_lhs_1 (j : S1024x50.Idx) (q : dot_S1024x384_S384x50_S1024x50_1_0_0_1_n_n.contr.Idx) :
    (dot_S1024x384_S384x50_S1024x50_1_0_0_1_n_n.lhsIdx j q 1).val = (q ⟨0, by decide⟩).val :=
  dot_S1024x384_S384x50_S1024x50_1_0_0_1_n_n.lhsIdx_val_of_single rfl j q
/-- the right operand's row is the contraction coordinate … -/
theorem head_rhs_0 (j : S1024x50.Idx) (q : dot_S1024x384_S384x50_S1024x50_1_0_0_1_n_n.contr.Idx) :
    (dot_S1024x384_S384x50_S1024x50_1_0_0_1_n_n.rhsIdx j q 0).val = (q ⟨0, by decide⟩).val :=
  dot_S1024x384_S384x50_S1024x50_1_0_0_1_n_n.rhsIdx_val_of_single rfl j q
/-- … and its column the output's column. -/
theorem head_rhs_1 (j : S1024x50.Idx) (q : dot_S1024x384_S384x50_S1024x50_1_0_0_1_n_n.contr.Idx) :
    (dot_S1024x384_S384x50_S1024x50_1_0_0_1_n_n.rhsIdx j q 1).val = (j 1).val := by
  unfold DotDims.rhsIdx
  rw [dif_neg (show ¬(1 : Fin S384x50.rank) ∈ dot_S1024x384_S384x50_S1024x50_1_0_0_1_n_n.rhsBatch by decide), dif_pos (show (1 : Fin S384x50.rank) ∈ dot_S1024x384_S384x50_S1024x50_1_0_0_1_n_n.rhsNonContracting by decide)]
  rfl

/-! ## Each product at an entry: a sum over the contracted coordinate -/

/-- The selecting product into a zero tile, at atom `p` and channel `n`: the sum over the residues. -/
theorem select_product (l : FVec Ideal S1024x2048 .bf16) (r : FVec Ideal S2048x384 .bf16) (p : Fin 1024) (n : Fin 384) :
    matmul dot_S1024x2048_S2048x384_S1024x384_1_0_0_1_n_n none l r (constant (F := Ideal) S1024x384 .f32 0x00000000#32) (ix2 p n)
      = ∑ k : Fin 2048, l (ix2 p k) * r (ix2 k n) := by
  simp only [matmul]
  rw [Ideal.matmul_constant_zero_apply, ← Equiv.sum_comp (contrEquiv1 dot_S1024x2048_S2048x384_S1024x384_1_0_0_1_n_n 2048 rfl rfl).symm]
  refine Finset.sum_congr rfl fun k _ => ?_
  have hk := contrEquiv1_symm_val dot_S1024x2048_S2048x384_S1024x384_1_0_0_1_n_n 2048 rfl rfl k
  have el : dot_S1024x2048_S2048x384_S1024x384_1_0_0_1_n_n.lhsIdx (ix2 p n) ((contrEquiv1 dot_S1024x2048_S2048x384_S1024x384_1_0_0_1_n_n 2048 rfl rfl).symm k) = ix2 p k := funext fun a => Fin.ext (by
    match a with
    | ⟨0, _⟩ => exact select_lhs_0 _ _
    | ⟨1, _⟩ => exact (select_lhs_1 _ _).trans hk)
  have er : dot_S1024x2048_S2048x384_S1024x384_1_0_0_1_n_n.rhsIdx (ix2 p n) ((contrEquiv1 dot_S1024x2048_S2048x384_S1024x384_1_0_0_1_n_n 2048 rfl rfl).symm k) = ix2 k n := funext fun a => Fin.ext (by
    match a with
    | ⟨0, _⟩ => exact (select_rhs_0 _ _).trans hk
    | ⟨1, _⟩ => exact select_rhs_1 _ _)
  rw [el, er]

/-- The head's product into a zero tile, at atom `p` and output channel `n`: the sum over the embedding's channels. -/
theorem head_product (l : FVec Ideal S1024x384 .bf16) (r : FVec Ideal S384x50 .bf16) (p : Fin 1024) (n : Fin 50) :
    matmul dot_S1024x384_S384x50_S1024x50_1_0_0_1_n_n none l r (constant (F := Ideal) S1024x50 .f32 0x00000000#32) (ix2 p n)
      = ∑ k : Fin 384, l (ix2 p k) * r (ix2 k n) := by
  simp only [matmul]
  rw [Ideal.matmul_constant_zero_apply, ← Equiv.sum_comp (contrEquiv1 dot_S1024x384_S384x50_S1024x50_1_0_0_1_n_n 384 rfl rfl).symm]
  refine Finset.sum_congr rfl fun k _ => ?_
  have hk := contrEquiv1_symm_val dot_S1024x384_S384x50_S1024x50_1_0_0_1_n_n 384 rfl rfl k
  have el : dot_S1024x384_S384x50_S1024x50_1_0_0_1_n_n.lhsIdx (ix2 p n) ((contrEquiv1 dot_S1024x384_S384x50_S1024x50_1_0_0_1_n_n 384 rfl rfl).symm k) = ix2 p k := funext fun a => Fin.ext (by
    match a with
    | ⟨0, _⟩ => exact head_lhs_0 _ _
    | ⟨1, _⟩ => exact (head_lhs_1 _ _).trans hk)
  have er : dot_S1024x384_S384x50_S1024x50_1_0_0_1_n_n.rhsIdx (ix2 p n) ((contrEquiv1 dot_S1024x384_S384x50_S1024x50_1_0_0_1_n_n 384 rfl rfl).symm k) = ix2 k n := funext fun a => Fin.ext (by
    match a with
    | ⟨0, _⟩ => exact (head_rhs_0 _ _).trans hk
    | ⟨1, _⟩ => exact head_rhs_1 _ _)
  rw [el, er]

/-! ## The stored tile at an entry -/

/-- The body's one stored value, at unit coordinate `u`, atom `p` of the tile and output channel `o`. -/
theorem tile_apply (x0 : Vec Ideal S1x1024x2048 .f32) (x1 : Vec Ideal S1x2048x384 .f32) (x2 : Vec Ideal S384x50 .f32)
    (x3 : Vec Ideal S50 .f32) (u : Fin 1) (p : Fin 1024) (o : Fin 50) :
    k0_pay1 (F := Ideal) x0 x1 x2 x3 (ix3 u p o)
      = (∑ c : Fin 384, (∑ r : Fin 2048, x0 (ix3 (0 : Fin 1) p r) * x1 (ix3 (0 : Fin 1) r c)) * x2 (ix2 c o)) + x3 (ix1 o) := by
  unfold k0_pay1
  refine (shapeCast_ab_1ab_apply _ _ u p o).trans ?_
  refine (addf_apply _ _ _).trans ?_
  refine congrArg₂ (· + ·) ?_ ?_
  · refine (head_product _ _ p o).trans ?_
    refine Finset.sum_congr rfl fun c _ => ?_
    refine congrArg₂ (· * ·) ?_ ?_
    · refine (select_product _ _ p c).trans ?_
      refine Finset.sum_congr rfl fun r _ => ?_
      refine congrArg₂ (· * ·) ?_ ?_
      · exact shapeCast_1ab_ab_apply x0 _ p r
      · exact shapeCast_1ab_ab_apply x1 _ r c
    · exact congrFun (shapeCast_self x2 _) (ix2 c o)
  · refine (broadcastTo_1b_ab_apply _ _ p o).trans ?_
    exact shapeCast_a_1a_apply x3 _ (0 : Fin 1) o

end Cert.TileProducts

end
-- ==== Proof.KernelLogits.lean ====
/-
  The kernel's result array is the specification `Cert.Logits.logits` of its four arguments.

  The grid has 2 × 16 points; point (b, n) holds atoms 1024·n … 1024·n + 1023 of batch entry b. Its selection tile
  is rows of `sel[b]`, its embedding block is all of `s[b]`, the weights and the bias are whole, and the weights
  arrive transposed (a host transpose before the call). So the value the body stores at atom `p` of its tile and
  channel `o` (`Cert.TileProducts.tile_apply`) is the specification at (b, 1024·n + p, o): every point writes back a
  block of ONE whole-array function. The 32 output blocks tile the [2, 16384, 50] result, hence the result array IS
  that function.
-/
import proofs.«150678_j90228672954830_1_alg».proof.Proof.Gen.KernelIdeal.Value
import proofs.«150678_j90228672954830_1_alg».proof.Proof.TileProducts
import proofs.«150678_j90228672954830_1_alg».proof.Proof.Logits
import Idealize.ShloMosaic.Lib.StableHlo.Run
import Idealize.ShloMosaic.Lib.ValueLayout

set_option maxRecDepth 16384

noncomputable section

open scoped BigOperators

namespace Cert.KernelLogits

open Cert.KernelIdeal Cert.KernelIdeal.Gen Cert.Logits Cert.TileProducts
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The weights as the call finds them: transposed -/

/-- The one host operation before the call writes the transposed weights. -/
theorem weights_transposed (c : Dev nD) :
    (V m c main_v0 : S384x50.Idx → Elt Ideal .f32)
      = transpose S384x50 [1, 0] (m ((c : Thread nD τ).loc main_arg2)) transposes_S50x384_S384x50_1_0 := by
  dsimp only [Gen.V, Gen.hostOps0]; after_results

/-- Entry (k, o) of what the call finds is entry (o, k) of the weights. -/
theorem weights_apply (c : Dev nD) (k : Fin 384) (o : Fin 50) :
    V m c main_v0 (ix2 k o) = m ((c : Thread nD τ).loc main_arg2) (ix2 o k) :=
  (congrFun (weights_transposed m c) (ix2 k o)).trans (transpose_ix2_apply _ _ k o)

/-! ## The grid: which batch entry and which atoms a point holds -/

/-- The printed index maps, decided over the 32 points: the selection tile moves with the output tile on the batch and
    atom axes, the embedding block with it on the batch axis only, every other block index is zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) ≤ 1 ∧ win0_4.index t (1 : Fin 3) ≤ 15 ∧ win0_4.index t (2 : Fin 3) = 0 :=
  (by decide +kernel : ∀ t : Fin grid0.N, _)

/-- Every (batch entry, atom tile) pair is some point's. -/
theorem idx_onto : ∀ (q0 : Fin 2) (q1 : Fin 16), ∃ t : Fin cfg0.N, win0_4.index t = ![q0.val, q1.val, 0] :=
  (by decide +kernel : ∀ (q0 : Fin 2) (q1 : Fin 16), ∃ t : Fin grid0.N, win0_4.index t = ![q0.val, q1.val, 0])

/-- The batch entry of point `t`. -/
def batchOf (t : Fin cfg0.N) : Fin 2 :=
  ⟨win0_4.index t (0 : Fin 3), by have := (idx_facts t).2.2.2.2.2.2.2.2.2.1; omega⟩

/-- Atom `p` of point `t`'s tile, as an atom of the array. -/
def atomOf (t : Fin cfg0.N) (p : Fin 1024) : Fin 16384 :=
  ⟨win0_4.index t (1 : Fin 3) * 1024 + p.val, by have := (idx_facts t).2.2.2.2.2.2.2.2.2.2.1; have := p.isLt; omega⟩

/-! ## Each block entry, in the arrays as the call finds them -/

/-- Entry (u, p, o) of point `t`'s output block is entry (batch, atom, o) of the result array. -/
theorem out_index (t : Fin cfg0.N) (u : Fin 1) (p : Fin 1024) (o : Fin 50) :
    ((cfg0.win 4).blk t).view.emb (ix3 u p o) = ix3 (batchOf t) (atomOf t p) o := by
  obtain ⟨-, -, -, -, -, -, -, -, -, -, -, e42⟩ := idx_facts t
  funext a; apply Fin.ext
  match a with
  | ⟨0, _⟩ => show win0_4.index t (0 : Fin 3) * 1 + 1 * u.val = win0_4.index t (0 : Fin 3); have := u.isLt; omega
  | ⟨1, _⟩ => show win0_4.index t (1 : Fin 3) * 1024 + 1 * p.val = win0_4.index t (1 : Fin 3) * 1024 + p.val; omega
  | ⟨2, _⟩ => show win0_4.index t (2 : Fin 3) * 50 + 1 * o.val = o.val; omega

/-- The selection tile's row `p` is the atom's row of `sel`. -/
theorem sel_block (c : Dev nD) (t : Fin cfg0.N) (p : Fin 1024) (r : Fin 2048) :
    iblk m c 0 t (ix3 (0 : Fin 1) p r) = V m c main_arg1 (ix3 (batchOf t) (atomOf t p) r) := by
  show V m c main_arg1 (((cfg0.win 0).blk t).view.emb (ix3 (0 : Fin 1) p r)) = _
  refine congrArg (V m c main_arg1) ?_
  obtain ⟨e00, e01, e02, -⟩ := idx_facts t
  funext a; apply Fin.ext
  match a with
  | ⟨0, _⟩ => show win0_0.index t (0 : Fin 3) * 1 + 1 * 0 = win0_4.index t (0 : Fin 3); omega
  | ⟨1, _⟩ => show win0_0.index t (1 : Fin 3) * 1024 + 1 * p.val = win0_4.index t (1 : Fin 3) * 1024 + p.val; omega
  | ⟨2, _⟩ => show win0_0.index t (2 : Fin 3) * 2048 + 1 * r.val = r.val; omega

/-- The embedding block is the batch entry's whole embedding. -/
theorem emb_block (c : Dev nD) (t : Fin cfg0.N) (r : Fin 2048) (k : Fin 384) :
    iblk m c 1 t (ix3 (0 : Fin 1) r k) = V m c main_arg0 (ix3 (batchOf t) r k) := by
  show V m c main_arg0 (((cfg0.win 1).blk t).view.emb (ix3 (0 : Fin 1) r k)) = _
  refine congrArg (V m c main_arg0) ?_
  obtain ⟨-, -, -, e10, e11, e12, -⟩ := idx_facts t
  funext a; apply Fin.ext
  match a with
  | ⟨0, _⟩ => show win0_1.index t (0 : Fin 3) * 1 + 1 * 0 = win0_4.index t (0 : Fin 3); omega
  | ⟨1, _⟩ => show win0_1.index t (1 : Fin 3) * 2048 + 1 * r.val = r.val; omega
  | ⟨2, _⟩ => show win0_1.index t (2 : Fin 3) * 384 + 1 * k.val = k.val; omega

/-- The weights block is the whole transposed weights: entry (k, o) is `W[o, k]`. -/
theorem weights_block (c : Dev nD) (t : Fin cfg0.N) (k : Fin 384) (o : Fin 50) :
    iblk m c 2 t (ix2 k o) = m ((c : Thread nD τ).loc main_arg2) (ix2 o k) := by
  refine Eq.trans ?_ (weights_apply m c k o)
  show V m c main_v0 (((cfg0.win 2).blk t).view.emb (ix2 k o)) = _
  refine congrArg (V m c main_v0) ?_
  obtain ⟨-, -, -, -, -, -, e20, e21, -⟩ := idx_facts t
  funext a; apply Fin.ext
  match a with
  | ⟨0, _⟩ => show win0_2.index t (0 : Fin 2) * 384 + 1 * k.val = k.val; omega
  | ⟨1, _⟩ => show win0_2.index t (1 : Fin 2) * 50 + 1 * o.val = o.val; omega

/-- The bias block is the whole bias. -/
theorem bias_block (c : Dev nD) (t : Fin cfg0.N) (o : Fin 50) :
    iblk m c 3 t (ix1 o) = V m c main_arg3 (ix1 o) := by
  show V m c main_arg3 (((cfg0.win 3).blk t).view.emb (ix1 o)) = _
  refine congrArg (V m c main_arg3) ?_
  obtain ⟨-, -, -, -, -, -, -, -, e30, -⟩ := idx_facts t
  funext a; apply Fin.ext
  match a with
  | ⟨0, _⟩ => show win0_3.index t (0 : Fin 1) * 50 + 1 * o.val = o.val; omega

/-! ## What a point writes back is a block of the specification -/

/-- The specification of the arrays as the call finds them (the weights as launched, before their transposition). -/
def result (c : Dev nD) : S2x16384x50.Idx → Elt Ideal .f32 :=
  logits (V m c main_arg0) (V m c main_arg1) (m ((c : Thread nD τ).loc main_arg2)) (V m c main_arg3)

/-- The tile stored at point `t`, entry by entry, is the specification under that entry of the output block. -/
theorem point_entry (c : Dev nD) (t : Fin cfg0.N) (j : S1x1024x50.Idx) :
    k0_pay1 (F := Ideal) (iblk m c 0 t) (iblk m c 1 t) (iblk m c 2 t) (iblk m c 3 t) j
      = result m c (((cfg0.win 4).blk t).view.emb j) := by
  obtain ⟨u, p, o, rfl⟩ : ∃ (u : Fin 1) (p : Fin 1024) (o : Fin 50), j = ix3 u p o := ⟨j 0, j 1, j 2, eq_ix3 j⟩
  rw [out_index]
  unfold result
  rw [logits_apply]
  refine (tile_apply (iblk m c 0 t) (iblk m c 1 t) (iblk m c 2 t) (iblk m c 3 t) u p o).trans ?_
  refine congrArg₂ (· + ·) (Finset.sum_congr rfl fun k _ => ?_) (bias_block m c t o)
  refine congrArg₂ (· * ·) (Finset.sum_congr rfl fun r _ => ?_) (weights_block m c t k o)
  exact congrArg₂ (· * ·) (sel_block m c t p r) (emb_block m c t r k)

theorem zero_offsets3 : (![0, 0, 0] : Fin 3 → Nat) = fun _ => 0 := funext fun a => by fin_cases a <;> rfl
theorem zero_offsets2 : (![0, 0] : Fin 2 → Nat) = fun _ => 0 := funext fun a => by fin_cases a <;> rfl
theorem zero_offsets1 : (![0] : Fin 1 → Nat) = fun _ => 0 := funext fun a => by fin_cases a <;> rfl

/-- WHAT POINT `t` WRITES BACK is block `t` of the specification. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets3]
  simp only [View.ld_unit_zero (S := S1x1024x2048) zero_offsets3, View.ld_unit_zero (S := S1x2048x384) zero_offsets3,
    View.ld_unit_zero (S := S384x50) zero_offsets2, View.ld_unit_zero (S := S50) zero_offsets1]
  funext j
  exact point_entry m c t j

/-! ## The output blocks tile the result array -/

/-- An index of the result array is in point `t`'s block iff each coordinate is in the block's range on its axis. -/
theorem mem_blk (t : Fin cfg0.N) (i : S2x16384x50.Idx) :
    i ∈ ((cfg0.win 4).blk t).view.set ↔ ∀ a : Fin 3, win0_4.index t a * S1x1024x50.size a ≤ (i a).val ∧ (i a).val < win0_4.index t a * S1x1024x50.size a + S1x1024x50.size a := by
  show i ∈ ((View.whole main_v1).slice (win0_4.rect t)).set ↔ _
  rw [View.set_slice_whole, Rect.mem_set_unit]
  exact Iff.rfl

/-- Every index is in the block of the point holding its batch entry and its atom's tile (atom / 1024). -/
theorem covered (i : S2x16384x50.Idx) :
    ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 50 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 50 ≤ (i 2).val ∧ (i 2).val < win0_4.index t (2 : Fin 3) * 50 + 50; omega

/-- THE ARRAY after the run is the specification of the arguments as launched. -/
theorem final (c : Dev nD) : (dats m 0 c).arrAt 4 cfg0.N
    = logits (m ((c : Thread nD τ).loc main_arg0)) (m ((c : Thread nD τ).loc main_arg1))
        (m ((c : Thread nD τ).loc main_arg2)) (m ((c : Thread nD τ).loc main_arg3)) := by
  rw [(dats m 0 c).arrAt_eq_of_cover 4 (result m c) (fun t _ => flushed_eq m c t) covered]
  unfold result
  rw [V_main_arg0, V_main_arg1, V_main_arg3]

/-! ## The run, read -/

/-- Every weakly fair execution of the kernel's program ends with the result array at the specification of the
    arguments, and the arguments unchanged. -/
theorem run : θ_run defs (onTc (τ := τ) (main (F := Ideal))) ⟨m, fun _ => 0, ρ⟩ fun r => ∀ c : Dev nD,
      r.2.mem ((c : Thread nD τ).loc main_v1)
        = logits (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelLogits

end
-- ==== Proof.lean ====
/-
  The atom logits of a per-residue head: a tiled kernel against two einsums, equal over the extended reals.

  Arguments: the residue embedding `s : [2, 2048, 384]`, a selection matrix `sel : [2, 16384, 2048]` (one row per atom),
  the head's weights `W : [50, 384]` and bias `[50]`. The result at batch entry b, atom a, channel o is
      logits[b, a, o] = (Σ_{c < 384} (Σ_{r < 2048} sel[b, a, r] · s[b, r, c]) · W[o, c]) + bias[o]      (Proof/Logits.lean).

  The reference is exactly that: a batched contraction over r, a contraction over c against W, and the bias broadcast
  along the last axis (Proof/ReferenceLogits.lean, over the generated reading of the reference one operation at a time).

  The kernel runs on a 2 × 16 grid; a point holds 1024 atoms of one batch entry, multiplies their selection rows by
  that entry's whole embedding, multiplies the product by the transposed weights (transposed once on the host before the
  call) and adds the bias row. On the extended reals the narrowings to bf16 are the identity and a product accumulated
  into a zero tile is the plain sum, so each stored entry is the same nest of sums in the same association
  (Proof/TileProducts.lean); each point writes back a block of the one whole-array function, and the 32 blocks tile the
  result (Proof/KernelLogits.lean, over the generated blockwise value leg).

  No sum is reordered and no product distributed, so the inputs' finiteness is not used: the two sides agree on every
  extended-real input. The three frames are the generated ones (the reference's is its generated run with the result
  dropped); the idealization rewrote nothing, so `preserves` is `True`.
-/
import proofs.«150678_j90228672954830_1_alg».proof.Defs
import proofs.«150678_j90228672954830_1_alg».proof.Proof.Gen.Kernel
import proofs.«150678_j90228672954830_1_alg».proof.Proof.Gen.Kernel.Skeleton
import proofs.«150678_j90228672954830_1_alg».proof.Proof.Gen.Kernel.Launch
import proofs.«150678_j90228672954830_1_alg».proof.Proof.Gen.Kernel.Points
import proofs.«150678_j90228672954830_1_alg».proof.Proof.Gen.Kernel.Frame
import proofs.«150678_j90228672954830_1_alg».proof.Proof.Gen.KernelIdeal
import proofs.«150678_j90228672954830_1_alg».proof.Proof.Gen.KernelIdeal.Skeleton
import proofs.«150678_j90228672954830_1_alg».proof.Proof.Gen.KernelIdeal.Launch
import proofs.«150678_j90228672954830_1_alg».proof.Proof.Gen.KernelIdeal.Points
import proofs.«150678_j90228672954830_1_alg».proof.Proof.Gen.KernelIdeal.Frame
import proofs.«150678_j90228672954830_1_alg».proof.Proof.Gen.ReferenceIdeal
import proofs.«150678_j90228672954830_1_alg».proof.Proof.Gen.Pre_finite_inputs
import proofs.«150678_j90228672954830_1_alg».proof.Proof.Gen.KernelIdeal.Value
import proofs.«150678_j90228672954830_1_alg».proof.Proof.Gen.ReferenceIdeal.Run
import proofs.«150678_j90228672954830_1_alg».proof.Proof.Gen.ReferenceIdeal.Read
import proofs.«150678_j90228672954830_1_alg».proof.Proof.Logits
import proofs.«150678_j90228672954830_1_alg».proof.Proof.ReferenceLogits
import proofs.«150678_j90228672954830_1_alg».proof.Proof.KernelLogits
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result's conjunct dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at
    `Cert.Logits.logits` of those arguments: the kernel by its blocks (`Cert.KernelLogits.run`), the reference by
    its operations read at an index (`Cert.ReferenceLogits.stage_eq_logits`). -/
theorem algebraic : Cert.algebraic_KernelIdeal_ReferenceIdeal := by
  intro m ρ m' ρ' _ hagree
  refine ⟨_, Cert.KernelLogits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceLogits.stage_eq_logits,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
